-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S16x128 : Shape := ⟨2, ![16, 128]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16x128 .f32) (main_arg5 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S16x128 .f32 := Host.absf main_arg4
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S10000x10000 .f32) (main_arg3 : FVec F S128x128 .f32) (main_arg4 : FVec F S16x128 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S16x128 : Shape := ⟨2, ![16, 128]⟩
abbrev S16 : Shape := ⟨1, ![16]⟩
abbrev S1x16 : Shape := ⟨2, ![1, 16]⟩
abbrev S10000x16 : Shape := ⟨2, ![10000, 16]⟩
abbrev S320x10000 : Shape := ⟨2, ![320, 10000]⟩
abbrev S320x16 : Shape := ⟨2, ![320, 16]⟩
abbrev S320x128 : Shape := ⟨2, ![320, 128]⟩
abbrev S320 : Shape := ⟨1, ![320]⟩
abbrev S320x1 : Shape := ⟨2, ![320, 1]⟩

abbrev nBuf : Space → Nat
  | .hbm => 8
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S16x128, .f32⟩
  | .hbm, ⟨5, _⟩ => ⟨S16, .f32⟩
  | .hbm, ⟨6, _⟩ => ⟨S1x16, .f32⟩
  | .hbm, ⟨7, _⟩ => ⟨S10000x16, .f32⟩
  | .local _ .vmem, ⟨0, _⟩ => ⟨S320x10000, .f32⟩
  | .local _ .vmem, ⟨1, _⟩ => ⟨S320x10000, .f32⟩
  | .local _ .vmem, ⟨2, _⟩ => ⟨S320x10000, .f32⟩
  | .local _ .vmem, ⟨3, _⟩ => ⟨S320x10000, .f32⟩
  | .local _ .vmem, ⟨4, _⟩ => ⟨S10000x128, .f32⟩
  | .local _ .vmem, ⟨5, _⟩ => ⟨S128x128, .f32⟩
  | .local _ .vmem, ⟨6, _⟩ => ⟨S16x128, .f32⟩
  | .local _ .vmem, ⟨7, _⟩ => ⟨S1x16, .f32⟩
  | .local _ .vmem, ⟨8, _⟩ => ⟨S320x16, .f32⟩
  | .local _ .vmem, ⟨9, _⟩ => ⟨S320x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16_S1x16 : S16.ShapeCasts S1x16
  inb_S320x10000_S320x10000_0_0 : ∀ a, (![0, 0] : Fin 2 → Nat) a + S320x10000.size a ≤ S320x10000.size a
  h_S320x10000 : 0 < S320x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  reduces_S320x128_S320 : S320x128.Reduces [1] S320
  shapeCasts_S320_S320x1 : S320.ShapeCasts S320x1
  broadcasts_S320x1_S320x128 : S320x1.Broadcasts S320x128
  inb_S16x128_S16x128_0_0 : ∀ a, (![0, 0] : Fin 2 → Nat) a + S16x128.size a ≤ S16x128.size a
  h_S16x128 : 0 < S16x128.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S320x16 : S1x16.Broadcasts S320x16
  inb_S320x16_S320x16_0_0 : ∀ a, (![0, 0] : Fin 2 → Nat) a + S320x16.size a ≤ S320x16.size a
  h_S320x16 : 0 < S320x16.numel
  dot_S320x10000_S10000x128_S320x128_1_0_0_1_n_n_wf : DotDims.WF S320x10000 S10000x128 S320x128 [1] [0] [0] [1] [] []
  dot_S320x128_S128x128_S320x128_1_0_0_1_n_n_wf : DotDims.WF S320x128 S128x128 S320x128 [1] [0] [0] [1] [] []
  dot_S320x128_S16x128_S320x16_1_1_0_0_n_n_wf : DotDims.WF S320x128 S16x128 S320x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S320x10000.size a < S10000x10000.size a
  hwx0_0 : ∀ i : grid0.Coords, EltTy.bits .f32 = 32 ∨ (Rect.unit (s := S10000x10000) (fun a => cc0_transform_0 i a * S320x10000.size a) (fun a => (Pipeline.Clip.of (cc0_transform_0 i a) (S320x10000.size a) (S10000x10000.size a)).extent (S320x10000.size a)) fun a => Pipeline.Clip.inb (Pipeline.Clip.ok_of (hstart0_0 i a))).WholeWords (EltTy.packing .f32)
  hwxs0_0 : ∀ i : grid0.Coords, EltTy.bits .f32 = 32 ∨ (Rect.unit (s := S320x10000) (fun _ => 0) (fun a => (Pipeline.Clip.of (cc0_transform_0 i a) (S320x10000.size a) (S10000x10000.size a)).extent (S320x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S320x10000.size a < S10000x10000.size a
  hwx0_1 : ∀ i : grid0.Coords, EltTy.bits .f32 = 32 ∨ (Rect.unit (s := S10000x10000) (fun a => cc0_transform_1 i a * S320x10000.size a) (fun a => (Pipeline.Clip.of (cc0_transform_1 i a) (S320x10000.size a) (S10000x10000.size a)).extent (S320x10000.size a)) fun a => Pipeline.Clip.inb (Pipeline.Clip.ok_of (hstart0_1 i a))).WholeWords (EltTy.packing .f32)
  hwxs0_1 : ∀ i : grid0.Coords, EltTy.bits .f32 = 32 ∨ (Rect.unit (s := S320x10000) (fun _ => 0) (fun a => (Pipeline.Clip.of (cc0_transform_1 i a) (S320x10000.size a) (S10000x10000.size a)).extent (S320x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S320x16.size a < S10000x16.size a
  hwx0_6 : ∀ i : grid0.Coords, EltTy.bits .f32 = 32 ∨ (Rect.unit (s := S10000x16) (fun a => cc0_transform_6 i a * S320x16.size a) (fun a => (Pipeline.Clip.of (cc0_transform_6 i a) (S320x16.size a) (S10000x16.size a)).extent (S320x16.size a)) fun a => Pipeline.Clip.inb (Pipeline.Clip.ok_of (hstart0_6 i a))).WholeWords (EltTy.packing .f32)
  hwxs0_6 : ∀ i : grid0.Coords, EltTy.bits .f32 = 32 ∨ (Rect.unit (s := S320x16) (fun _ => 0) (fun a => (Pipeline.Clip.of (cc0_transform_6 i a) (S320x16.size a) (S10000x16.size a)).extent (S320x16.size a)) fun a => (Nat.zero_add _).trans_le (Pipeline.Clip.extent_le (Pipeline.Clip.ok_of (hstart0_6 i a)))).WholeWords (EltTy.packing .f32)

variable [Facts₀]

def dot_S320x10000_S10000x128_S320x128_1_0_0_1_n_n : DotDims S320x10000 S10000x128 S320x128 where
  lhsContracting := [1]
  rhsContracting := [0]
  lhsNonContracting := [0]
  rhsNonContracting := [1]
  lhsBatch := []
  rhsBatch := []
  wf := dot_S320x10000_S10000x128_S320x128_1_0_0_1_n_n_wf
def dot_S320x128_S128x128_S320x128_1_0_0_1_n_n : DotDims S320x128 S128x128 S320x128 where
  lhsContracting := [1]
  rhsContracting := [0]
  lhsNonContracting := [0]
  rhsNonContracting := [1]
  lhsBatch := []
  rhsBatch := []
  wf := dot_S320x128_S128x128_S320x128_1_0_0_1_n_n_wf
def dot_S320x128_S16x128_S320x16_1_1_0_0_n_n : DotDims S320x128 S16x128 S320x16 where
  lhsContracting := [1]
  rhsContracting := [1]
  lhsNonContracting := [0]
  rhsNonContracting := [0]
  lhsBatch := []
  rhsBatch := []
  wf := dot_S320x128_S16x128_S320x16_1_1_0_0_n_n_wf

abbrev win0_0 : Pipeline.Window sig grid0 :=
  Pipeline.Window.ofSpecClip (Memref.whole main_arg1) S320x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg2) S320x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v1) S320x16.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S16x128 : Shape := ⟨2, ![16, 128]⟩
abbrev S16 : Shape := ⟨1, ![16]⟩
abbrev S_ : Shape := ⟨0, ![]⟩
abbrev S10000 : Shape := ⟨1, ![10000]⟩
abbrev S10000x1 : Shape := ⟨2, ![10000, 1]⟩
abbrev S128x16 : Shape := ⟨2, ![128, 16]⟩
abbrev S10000x16 : Shape := ⟨2, ![10000, 16]⟩
abbrev S1x16 : Shape := ⟨2, ![1, 16]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S16x128, .f32⟩
  | .hbm, ⟨5, _⟩ => ⟨S16, .f32⟩
  | .hbm, ⟨6, _⟩ => ⟨S10000x10000, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000, .f32⟩
  | .hbm, ⟨12, _⟩ => ⟨S10000x1, .f32⟩
  | .hbm, ⟨13, _⟩ => ⟨S10000x1, .f32⟩
  | .hbm, ⟨14, _⟩ => ⟨S_, .f32⟩
  | .hbm, ⟨15, _⟩ => ⟨S10000x1, .f32⟩
  | .hbm, ⟨16, _⟩ => ⟨S10000x1, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S128x16, .f32⟩
  | .hbm, ⟨23, _⟩ => ⟨S10000x16, .f32⟩
  | .hbm, ⟨24, _⟩ => ⟨S1x16, .f32⟩
  | .hbm, ⟨25, _⟩ => ⟨S10000x16, .f32⟩
  | .hbm, ⟨26, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call1_cst : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  transposes_S16x128_S128x16_1_0 : S16x128.Transposes [1, 0] S128x16
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x16_S10000x16_1_0_0_1_n_n_wf : DotDims.WF S10000x128 S128x16 S10000x16 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf

class Facts : Prop extends Facts₀ where

variable [Facts]
-- ==== Proof.KernelBody.lean ====
import proofs.«140461_g49323404427480_cont_8to1_c_747_6_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

/-! # The kernel body as one triple

The body of the one pallas_call reads its six input blocks whole (the two 320x10000 adjacency blocks, the
10000x128 feature array, the 128x128 and 16x128 weight arrays and the 1x16 bias row), reads the 320x16 output
block once (a value nothing uses), and then overwrites the WHOLE output block with ONE value: `k0_pay1` of the
six blocks read. So, run on seven whole buffers, the six inputs at contents `x0 … x5` and the output at any
contents, it ends with the inputs as they were and the output at `k0_pay1 x0 x1 x2 x3 x4 x5`.

The one store goes through the rectangle of the whole block at offsets zero, so what the buffer reads afterwards
is the stored value itself: nothing of the earlier contents survives under a store that covers every index. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rectangle of the output block's one store: the whole 320x16 block, at offsets zero. -/
abbrev outRect : Rect S320x16 := Rect.unit (s := S320x16) ![0, 0] S320x16.size inb_S320x16_S320x16_0_0

/-- The offsets of every access of the body: zero on both axes. -/
theorem off_zero : (![0, 0] : Fin 2 → ℕ) = fun _ => 0 :=
  funext fun a => by match a with | ⟨0, _⟩ => rfl | ⟨1, _⟩ => rfl

/-- Every index of the output block lies under the store's rectangle. -/
theorem outRect_cover (w : Vec F S320x16 .f32) (y : S320x16.Idx) :
    ∃ pc ∈ ([⟨outRect, w⟩] : List (View.Piece (Elt F) S320x16 .f32)), y ∈ pc.1.set :=
  ⟨_, List.mem_singleton_self _, View.mem_set_unit_zero (S := S320x16) off_zero inb_S320x16_S320x16_0_0 y⟩

/-- A load of a whole rank-2 buffer through the rectangle of its own sizes at offsets zero reads the buffer's
    contents. -/
theorem readAt_whole {κ : Kind} {sp : Space} {S : Shape} {e : EltTy} (hS : S.rank = 2) (v : View sig κ sp S e)
    (f : v.ty.Contents (Elt F)) (off : Fin S.rank → ℕ) (hoff : off = fun _ => 0) (inb : ∀ a, off a + S.size a ≤ S.size a) :
    View.readAt (Elt F) v (Rect.unit (s := S) off S.size inb).toLoadRect f = View.read (Elt F) v f :=
  View.ld_unit_zero hoff inb _

set_option maxHeartbeats 1000000 in
/-- The body on seven whole buffers: inputs at `x0 … x5`, the output at anything; it returns the inputs
    unchanged and the output at `k0_pay1 x0 x1 x2 x3 x4 x5`. -/
theorem sound_kernel (c : Dev nD) (E : Set ℕ) (i : grid0.Coords)
    (arg1 : Memref sig .tc .vmem S320x10000 .f32) (harg1 : arg1.IsWhole) (arg2 : Memref sig .tc .vmem S320x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S16x128 .f32) (harg5 : arg5.IsWhole) (arg6 : Memref sig .tc .vmem S1x16 .f32) (harg6 : arg6.IsWhole)
    (arg7 : Memref sig .tc .vmem S320x16 .f32) (harg7 : arg7.IsWhole)
    (x0 x1 : Vec F S320x10000 .f32) (x2 : Vec F S10000x128 .f32) (x3 : Vec F S128x128 .f32) (x4 : Vec F S16x128 .f32) (x5 : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k0_pay1 x0 x1 x2 x3 x4 x5)) -∗ K ⟨⟩))
      ⊢ wp frame (wpE (defs₀ (F := F)) Variants.none c none) E
          (cc0__fused_body i arg1 harg1 arg2 harg2 arg3 harg3 arg4 harg4 arg5 harg5 arg6 harg6 arg7 harg7) K := by
  simp only [cc0__fused_body_eq_skeleton]; unfold cc0__fused_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  -- one store under which every index lies: the buffer reads the stored value,
  refine (View.read_writes_eq_canon _ _ _ (outRect_cover _)).trans ?_
  rw [View.canon_unit_zero (S := S320x16) off_zero inb_S320x16_S320x16_0_0]
  -- and the stored value is over the six whole loads, each of which read its buffer's contents
  rw [readAt_whole rfl arg1.view f1 _ off_zero, readAt_whole rfl arg2.view f2 _ off_zero,
    readAt_whole rfl arg3.view f3 _ off_zero, readAt_whole rfl arg4.view f4 _ off_zero,
    readAt_whole rfl arg5.view f5 _ off_zero, readAt_whole rfl arg6.view f6 _ off_zero]

end Cert.Kernel.Hand

end
-- ==== Proof.KernelFrame.lean ====
import proofs.«140461_g49323404427480_cont_8to1_c_747_6_alg».proof.Proof.KernelBody
import proofs.«140461_g49323404427480_cont_8to1_c_747_6_alg».proof.Proof.Gen.Kernel.Frame

/-! # The word-level kernel leaves its argument arrays as they were

The program reshapes the bias (16 words) into a 1x16 array of its own and then runs ONE pipelined region over a grid
of 32 points. At point `t` the pipeline stages rows `320 t … 320 t + 319` of the two 10000x10000 adjacency arrays
(windows 0 and 1), the whole feature, weight and bias arrays (windows 2 to 5), runs the body, and writes the 320x16
block the body left (window 6) back to rows `320 t …` of the 10000x16 result. 32 · 320 = 10240 > 10000: the last
point's blocks run 240 rows past the arrays' ends, so the transfers there are cut at row 9999 and the tail rows of
those staging buffers hold words no array names; at word level a matrix product is a function of its WHOLE operand,
so nothing can be said of the words the body leaves in the output block there.

The claim proved here does not need them. It says only that the run ends and that the six ARGUMENT arrays hold at
the end what they held at the start. The pipeline only READS the arrays of windows 0 to 5 and only WRITES the result
array of window 6, which is no argument; and the bias argument is touched by no window at all (its reshaped copy is
what window 5 stages). So the proof data name NO staging buffer's contents: every window is handed to the body at
any contents and taken back at any contents, which is what the body's triple (`sound_kernel`) gives once its
precise output is forgotten. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Proof data that name no staging buffer's contents -/

/-- Every one of the seven windows is forgotten: nothing is said of what its staging buffer holds, before the
    body or after it. -/
def forgetAll : Fin 7 → Bool := fun _ => true

/-- The proof data on core `c`: each window's array at what the region finds there (`V`); what the body leaves in
    a staging buffer is left unnamed for every window; the invariant is the class's (the scoped rest and the
    generator register, untouched); full shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The proof data's arrays are the region-entry contents (the definition projected; `V` stays folded). -/
theorem A_eq (c : Dev nD) (w : Fin cfg0.W) : (dats m 0 c).A w = V m c (Pipeline.arrRef spec0 w) := by
  dsimp only [dats]

/-! ## The body at a point: any contents in, any contents out -/

/-- What the body is called with at point `t`: the invariant, what the core owes, and each window's current
    staging buffer whole at SOME contents. -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X))

/-- What it returns: the same, at the next point. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X))

/-- The body at any point: whatever the six input buffers hold (`X0 … X5`), the body's triple runs it, returns
    them as they were and the output buffer at the value of those six — of which only "some contents" is kept. The
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩, ⟨%X4, H4⟩, ⟨%X5, H5⟩, ⟨%X6, H6⟩⟩
  iapply (sound_kernel c Set.univ (grid0.coords t) _ _ _ _ _ _ _ _ _ _ _ _ _ _ X0 X1 X2 X3 X4 X5 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6

/-- The pipeline's body obligation with every window forgotten, at every point. -/
theorem body_obligation (c : Dev nD) :
    BodyObligation (dats (F := F) m 0 c) (defs₀ (F := F)) Variants.none () Set.univ forgetAll := fun t => by
  rw [bigSep_W0, bigSep_W0]
  exact sound_body m c t

/-! ## The run -/

set_option backward.isDefEq.respectTransparency.types false in
/-- From any memory with zero counters every weakly fair execution of the program on the TensorCores ends, and at
    the end every array a window only reads holds what the region found there, as does every other unscoped buffer
    that is no window's array; of the result array nothing is stated. -/
theorem run_main : θ_run defs (onTc (τ := τ) (main (F := F))) (s₀ m ρ)
    (Pipeline.RDat.FramePost (cfgs 0) (fun c => (dats m 0 c).toRForget forgetAll) (V m)) :=
  Pipeline.RDat.θ_run_frame cfgs (0 : Fin 1) launch0 defs₀ Variants.none (fun c => (dats m 0 c).toRForget forgetAll) m ρ main
    (hbody := fun c => (body_obligation m c).toRForget) (hshare := fun c => ((dats m 0 c).toRForget forgetAll).share_full fun _ => rfl)
    (howed := fun _ _ => rfl) (V := V m) (hmain := hmain m Variants.none) (hA := A_eq m) (hΦ := fun _ _ => rfl)

/-! ## The six argument arrays -/

/-- The frame: the run ends and each argument array ends as launched. The features, the two adjacency arrays and
    the two weight arrays are the arrays of windows 2, 0, 1, 3, 4, which the pipeline only reads: each ends at its
    region-entry contents, which no host operation before the region wrote. The bias is no window's array (window 5
    stages its reshaped copy): it is among the other unscoped buffers, which end as the region found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(Pipeline.RDat.FramePost.arr_in h c 2 rfl).trans ((A_eq m c 2).trans (V_main_arg0 m c)),
      (Pipeline.RDat.FramePost.arr_in h c 0 rfl).trans ((A_eq m c 0).trans (V_main_arg1 m c)),
      (Pipeline.RDat.FramePost.arr_in h c 1 rfl).trans ((A_eq m c 1).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      ((h c).2 main_arg5 (Pipeline.mem_restRefs_of main_arg5 (by decide) (by decide))).trans (V_main_arg5 m c)⟩)
    (run_main m ρ)

end Cert.Kernel.Hand

end
-- ==== Proof.KernelIdealData.lean ====
import proofs.«140461_g49323404427480_cont_8to1_c_747_6_alg».proof.Proof.Gen.KernelIdeal.Frame
import proofs.«140461_g49323404427480_cont_8to1_c_747_6_alg».proof.Proof.Gen.KernelIdeal.Skeleton
import proofs.«140461_g49323404427480_cont_8to1_c_747_6_alg».proof.Proof.Gen.KernelIdeal.Points
import proofs.«140461_g49323404427480_cont_8to1_c_747_6_alg».proof.Proof.Gen.KernelIdeal.Launch
import Idealize.ShloMosaic.Lib.Pipeline.Frame
import Idealize.ShloMosaic.Lib.Pipeline.FrameBody
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The proof data -/

/-- The adjacency block at point `t` as a full 320-row block: its rows inside the array, zero rows below them
    (the zero rows are a choice of this proof; nothing reads them). -/
def adjBlk (c : Dev nD) (t : Fin cfg0.N) : S320x10000.Idx → Elt Ideal .f32 :=
  win0_0.fill (grid0.coords t) (fun _ => (0 : EReal)) (iblk m c 0 t)
/-- The weight-adjacency block likewise. -/
def adjwBlk (c : Dev nD) (t : Fin cfg0.N) : S320x10000.Idx → Elt Ideal .f32 :=
  win0_1.fill (grid0.coords t) (fun _ => (0 : EReal)) (iblk m c 1 t)

/-- What the body leaves in the output's staging block at point `t`: the layer applied to the two padded blocks. -/
def outBlk (c : Dev nD) (t : Fin cfg0.N) : S320x16.Idx → Elt Ideal .f32 :=
  k0_pay1 (F := Ideal) (adjBlk m c t) (adjwBlk m c t) (iblk m c 2 t) (iblk m c 3 t) (iblk m c 4 t) (iblk m c 5 t)

def dats (_ : Fin 1) (c : Dev nD) : Dat τ (Elt Ideal) Unit ℕ (UR sig nD τ) ℕ cfg0 c where
  A w := V m c (Pipeline.arrRef spec0 w)
  after w t := match w with
    | ⟨0, _⟩ => adjBlk m c t
    | ⟨1, _⟩ => adjwBlk m c t
    | ⟨2, _⟩ => iblk m c 2 t
    | ⟨3, _⟩ => iblk m c 3 t
    | ⟨4, _⟩ => iblk m c 4 t
    | ⟨5, _⟩ => iblk m c 5 t
    | ⟨6, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = adjBlk m c t := by dsimp only [dats]
theorem after0_1 (c : Dev nD) (t : Fin cfg0.N) : (dats m 0 c).after 1 t = adjwBlk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]

/-- The two adjacency windows are fetched at every point: the body finds the block's rows inside the array and,
    below them, whatever the buffer held. -/
theorem before0_0 (c : Dev nD) (t : Fin cfg0.N) (d) :
    (dats m 0 c).before 0 t d = win0_0.fill (grid0.coords t) d (iblk m c 0 t) := by
  rw [Pipeline.Dat.before_fetched _ 0 t (fetch0_0 t)]
  unfold Dat.fetched Dat.blockOf iblk; rw [A_eq]
theorem before0_1 (c : Dev nD) (t : Fin cfg0.N) (d) :
    (dats m 0 c).before 1 t d = win0_1.fill (grid0.coords t) d (iblk m c 1 t) := by
  rw [Pipeline.Dat.before_fetched _ 1 t (fetch0_1 t)]
  unfold Dat.fetched Dat.blockOf iblk; rw [A_eq]
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- The output block is written back at every point, so the body finds its buffer at contents nothing names. -/
theorem before0_6 (c : Dev nD) (t : Fin cfg0.N) (d) : (dats m 0 c).before 6 t d = d :=
  Pipeline.Dat.before_out_reset _ 6 rfl t (by
    by_cases h : t.val = 0
    · exact .inl h
    · exact .inr ⟨h, flush0_6 _⟩) d

end Cert.KernelIdeal.Hand

end
-- ==== Proof.KernelIdealBody.lean ====
import proofs.«140461_g49323404427480_cont_8to1_c_747_6_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

/-! # The kernel body as one triple

The body of the one pallas_call reads its six input blocks whole (the two 320x10000 adjacency blocks, the
10000x128 feature array, the 128x128 and 16x128 weight arrays and the 1x16 bias row), reads the 320x16 output
block once (a value nothing uses), and then overwrites the WHOLE output block with ONE value: `k0_pay1` of the
six blocks read. So, run on seven whole buffers, the six inputs at contents `x0 … x5` and the output at any
contents, it ends with the inputs as they were and the output at `k0_pay1 x0 x1 x2 x3 x4 x5`.

The one store goes through the rectangle of the whole block at offsets zero, so what the buffer reads afterwards
is the stored value itself: nothing of the earlier contents survives under a store that covers every index. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rectangle of the output block's one store: the whole 320x16 block, at offsets zero. -/
abbrev outRect : Rect S320x16 := Rect.unit (s := S320x16) ![0, 0] S320x16.size inb_S320x16_S320x16_0_0

/-- The offsets of every access of the body: zero on both axes. -/
theorem off_zero : (![0, 0] : Fin 2 → ℕ) = fun _ => 0 :=
  funext fun a => by match a with | ⟨0, _⟩ => rfl | ⟨1, _⟩ => rfl

/-- Every index of the output block lies under the store's rectangle. -/
theorem outRect_cover (w : Vec F S320x16 .f32) (y : S320x16.Idx) :
    ∃ pc ∈ ([⟨outRect, w⟩] : List (View.Piece (Elt F) S320x16 .f32)), y ∈ pc.1.set :=
  ⟨_, List.mem_singleton_self _, View.mem_set_unit_zero (S := S320x16) off_zero inb_S320x16_S320x16_0_0 y⟩

/-- A load of a whole rank-2 buffer through the rectangle of its own sizes at offsets zero reads the buffer's
    contents. -/
theorem readAt_whole {κ : Kind} {sp : Space} {S : Shape} {e : EltTy} (hS : S.rank = 2) (v : View sig κ sp S e)
    (f : v.ty.Contents (Elt F)) (off : Fin S.rank → ℕ) (hoff : off = fun _ => 0) (inb : ∀ a, off a + S.size a ≤ S.size a) :
    View.readAt (Elt F) v (Rect.unit (s := S) off S.size inb).toLoadRect f = View.read (Elt F) v f :=
  View.ld_unit_zero hoff inb _

set_option maxHeartbeats 1000000 in
/-- The body on seven whole buffers: inputs at `x0 … x5`, the output at anything; it returns the inputs
    unchanged and the output at `k0_pay1 x0 x1 x2 x3 x4 x5`. -/
theorem sound_kernel (c : Dev nD) (E : Set ℕ) (i : grid0.Coords)
    (arg1 : Memref sig .tc .vmem S320x10000 .f32) (harg1 : arg1.IsWhole) (arg2 : Memref sig .tc .vmem S320x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S16x128 .f32) (harg5 : arg5.IsWhole) (arg6 : Memref sig .tc .vmem S1x16 .f32) (harg6 : arg6.IsWhole)
    (arg7 : Memref sig .tc .vmem S320x16 .f32) (harg7 : arg7.IsWhole)
    (x0 x1 : Vec F S320x10000 .f32) (x2 : Vec F S10000x128 .f32) (x3 : Vec F S128x128 .f32) (x4 : Vec F S16x128 .f32) (x5 : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k0_pay1 x0 x1 x2 x3 x4 x5)) -∗ K ⟨⟩))
      ⊢ wp frame (wpE (defs₀ (F := F)) Variants.none c none) E
          (cc0__fused_body i arg1 harg1 arg2 harg2 arg3 harg3 arg4 harg4 arg5 harg5 arg6 harg6 arg7 harg7) K := by
  simp only [cc0__fused_body_eq_skeleton]; unfold cc0__fused_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  -- one store under which every index lies: the buffer reads the stored value,
  refine (View.read_writes_eq_canon _ _ _ (outRect_cover _)).trans ?_
  rw [View.canon_unit_zero (S := S320x16) off_zero inb_S320x16_S320x16_0_0]
  -- and the stored value is over the six whole loads, each of which read its buffer's contents
  rw [readAt_whole rfl arg1.view f1 _ off_zero, readAt_whole rfl arg2.view f2 _ off_zero,
    readAt_whole rfl arg3.view f3 _ off_zero, readAt_whole rfl arg4.view f4 _ off_zero,
    readAt_whole rfl arg5.view f5 _ off_zero, readAt_whole rfl arg6.view f6 _ off_zero]

end Cert.KernelIdeal.Hand

end
-- ==== Proof.Spec.lean ====
/-
  The layer both programs compute, row by row, on the extended reals.

  One output row depends on one row `a` of the summed adjacency (10000 entries), the feature matrix `x`
  (10000 × 128), the weight `W` (128 × 128), the classifier `Wm` (16 × 128) and its bias `b` (16):
  first the 128 entries  h c = ∑ k, a k · (x W) k c ; then the row is divided by max (√(∑ c, h c²)) floor,
  clamped below at 0, contracted against the rows of `Wm` and shifted by `b`.
  The two programs differ only in how they associate the double sum that gives `h`:
  (a · x) · W on one side and a · (x · W) on the other. The two are equal whenever every entry is a real
  number (distributivity of · over a finite sum, and swapping two finite sums); at an infinite entry they
  need not be, which is why the law below asks for real entries.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Gcn

/-- The floor under the row norm, as the binary word both programs write (it is never evaluated). -/
abbrev floorLit : EReal := Ideal.ofBits .f32 0x2B8CBCCC#32

/-- The 128 entries of a row after both products, associated as (a · x) · W. -/
def twoProdL (a : Fin 10000 → EReal) (x : Fin 10000 → Fin 128 → EReal) (W : Fin 128 → Fin 128 → EReal) (c : Fin 128) : EReal :=
  ∑ j : Fin 128, (∑ k : Fin 10000, a k * x k j) * W j c

/-- The same entries associated as a · (x · W). -/
def twoProdR (a : Fin 10000 → EReal) (x : Fin 10000 → Fin 128 → EReal) (W : Fin 128 → Fin 128 → EReal) (c : Fin 128) : EReal :=
  ∑ k : Fin 10000, a k * ∑ j : Fin 128, x k j * W j c

/-- What is done to a row `h` after the products: normalise by max (‖h‖₂) floor, clamp at 0, apply the classifier. -/
def rowTail (h : Fin 128 → EReal) (Wm : Fin 16 → Fin 128 → EReal) (b : Fin 16 → EReal) (q : Fin 16) : EReal :=
  (∑ c : Fin 128, max (Ideal.div (h c) (max (Ideal.sqrt (∑ c' : Fin 128, h c' * h c')) floorLit)) 0 * Wm q c) + b q

/-- A real-valued finite sum, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of two products on real entries, over any finite index sets:
    ∑ j, (∑ k, a k · x k j) · w j = ∑ k, a k · ∑ j, x k j · w j. Both sides are the reading of one real double sum. -/
theorem assoc_real {K J : Type} [Fintype K] [Fintype J] (a : K → EReal) (x : K → J → EReal) (w : J → EReal)
    (ha : ∀ k, ∃ r : ℝ, a k = (r : EReal)) (hx : ∀ k j, ∃ r : ℝ, x k j = (r : EReal)) (hw : ∀ j, ∃ r : ℝ, w j = (r : EReal)) :
    (∑ j : J, (∑ k : K, a k * x k j) * w j) = ∑ k : K, a k * ∑ j : J, x k j * w j := by
  choose ra hra using ha
  choose rx hrx using hx
  choose rw' hrw using hw
  have hL : (∑ j : J, (∑ k : K, a k * x k j) * w j)
      = ((∑ j : J, (∑ k : K, ra k * rx k j) * rw' j : ℝ) : EReal) := by
    rw [coe_sum]
    refine Finset.sum_congr rfl fun j _ => ?_
    rw [EReal.coe_mul, coe_sum, hrw]
    congr 1
    refine Finset.sum_congr rfl fun k _ => ?_
    rw [EReal.coe_mul, hra, hrx]
  have hR : (∑ k : K, a k * ∑ j : J, x k j * w j)
      = ((∑ k : K, ra k * ∑ j : J, rx k j * rw' j : ℝ) : EReal) := by
    rw [coe_sum]
    refine Finset.sum_congr rfl fun k _ => ?_
    rw [EReal.coe_mul, coe_sum, hra]
    congr 1
    refine Finset.sum_congr rfl fun j _ => ?_
    rw [EReal.coe_mul, hrx, hrw]
  rw [hL, hR]
  congr 1
  simp only [Finset.sum_mul, Finset.mul_sum]
  rw [Finset.sum_comm]
  refine Finset.sum_congr rfl fun k _ => Finset.sum_congr rfl fun j _ => ?_
  ring

/-- So the two associations of a row's products agree on real entries. -/
theorem twoProdL_eq_twoProdR (a : Fin 10000 → EReal) (x : Fin 10000 → Fin 128 → EReal) (W : Fin 128 → Fin 128 → EReal)
    (ha : ∀ k, ∃ r : ℝ, a k = (r : EReal)) (hx : ∀ k j, ∃ r : ℝ, x k j = (r : EReal)) (hW : ∀ j c, ∃ r : ℝ, W j c = (r : EReal)) :
    twoProdL a x W = twoProdR a x W :=
  funext fun c => assoc_real a x (fun j => W j c) ha hx (fun j => hW j c)

/-- The whole result: row `i 0` of the summed adjacency through the layer, entry `i 1`. -/
def result (x : (⟨2, ![10000, 128]⟩ : Shape).Idx → EReal) (adj adjw : (⟨2, ![10000, 10000]⟩ : Shape).Idx → EReal)
    (W : (⟨2, ![128, 128]⟩ : Shape).Idx → EReal) (Wm : (⟨2, ![16, 128]⟩ : Shape).Idx → EReal)
    (b : (⟨1, ![16]⟩ : Shape).Idx → EReal) : (⟨2, ![10000, 16]⟩ : Shape).Idx → EReal :=
  fun i => rowTail
    (twoProdR (fun k => adj (ix2 (n0 := 10000) (i 0) k) + adjw (ix2 (n0 := 10000) (i 0) k))
      (fun k j => x (ix2 k j)) (fun j c => W (ix2 j c)))
    (fun q c => Wm (ix2 q c)) (fun q => b (ix1 q)) (i 1)

end Cert.Gcn

end
-- ==== Proof.PayloadAt.lean ====
/-
  The kernel's stored block, read at one index, on the extended reals.

  At row p and column q of a block the stored value is the row tail of the 128 numbers
  h c = ∑ j, (∑ k, (x0 p k + x1 p k) · x2 k j) · x3 j c : the first product contracts the 10000 columns of the summed
  adjacency rows against the features, the second contracts the 128 feature columns against the weight, the third
  contracts the 128 columns of the clamped, normalised row against the ROWS of the classifier (axis 1 of both), and
  the bias row is added. Every step reads one entry of its operand (a pointwise operation, a layout operation) or
  is a finite sum over one axis (a product, the lane sum); so the entry depends on row p of x0 and x1 only.
-/
import proofs.«140461_g49323404427480_cont_8to1_c_747_6_alg».proof.Proof.Gen.KernelIdeal.Skeleton
import proofs.«140461_g49323404427480_cont_8to1_c_747_6_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-! ## The three products, read at an index

Each record contracts ONE axis; its contraction index is that axis's coordinate, and the operand indices at an output
index and a contraction coordinate are named axis by axis. -/

/-! ### First product: rows of the summed adjacency block against the features ([320,10000] · [10000,128]) -/

theorem lhs_adjx_0 (i : S320x128.Idx) (q : dot_S320x10000_S10000x128_S320x128_1_0_0_1_n_n.contr.Idx) :
    (dot_S320x10000_S10000x128_S320x128_1_0_0_1_n_n.lhsIdx i q 0).val = (i 0).val := by
  unfold DotDims.lhsIdx
  rw [dif_neg (show ¬(0 : Fin S320x10000.rank) ∈ dot_S320x10000_S10000x128_S320x128_1_0_0_1_n_n.lhsBatch by decide), dif_pos (show (0 : Fin S320x10000.rank) ∈ dot_S320x10000_S10000x128_S320x128_1_0_0_1_n_n.lhsNonContracting by decide)]
  rfl
theorem lhs_adjx_1 (i : S320x128.Idx) (q : dot_S320x10000_S10000x128_S320x128_1_0_0_1_n_n.contr.Idx) :
    (dot_S320x10000_S10000x128_S320x128_1_0_0_1_n_n.lhsIdx i q 1).val = (q ⟨0, by decide⟩).val :=
  dot_S320x10000_S10000x128_S320x128_1_0_0_1_n_n.lhsIdx_val_of_single rfl i q
theorem rhs_adjx_0 (i : S320x128.Idx) (q : dot_S320x10000_S10000x128_S320x128_1_0_0_1_n_n.contr.Idx) :
    (dot_S320x10000_S10000x128_S320x128_1_0_0_1_n_n.rhsIdx i q 0).val = (q ⟨0, by decide⟩).val :=
  dot_S320x10000_S10000x128_S320x128_1_0_0_1_n_n.rhsIdx_val_of_single rfl i q
theorem rhs_adjx_1 (i : S320x128.Idx) (q : dot_S320x10000_S10000x128_S320x128_1_0_0_1_n_n.contr.Idx) :
    (dot_S320x10000_S10000x128_S320x128_1_0_0_1_n_n.rhsIdx i q 1).val = (i 1).val := by
  unfold DotDims.rhsIdx
  rw [dif_neg (show ¬(1 : Fin S10000x128.rank) ∈ dot_S320x10000_S10000x128_S320x128_1_0_0_1_n_n.rhsBatch by decide), dif_pos (show (1 : Fin S10000x128.rank) ∈ dot_S320x10000_S10000x128_S320x128_1_0_0_1_n_n.rhsNonContracting by decide)]
  rfl

/-- Entry (p, j) of the first product is ∑ k, a p k · b k j. -/
theorem adjx_apply (a : FVec Ideal S320x10000 .f32) (b : FVec Ideal S10000x128 .f32) (p : Fin 320) (j : Fin 128) :
    matmul dot_S320x10000_S10000x128_S320x128_1_0_0_1_n_n none a b (constant S320x128 .f32 0x00000000#32) (ix2 p j)
      = ∑ k : Fin 10000, a (ix2 p k) * b (ix2 k j) := by
  simp only [matmul]
  rw [Ideal.matmul_constant_zero_apply, ← Equiv.sum_comp (ValueIdx.contrEquiv1 dot_S320x10000_S10000x128_S320x128_1_0_0_1_n_n 10000 rfl rfl).symm]
  refine Finset.sum_congr rfl fun k _ => ?_
  have hk := ValueIdx.contrEquiv1_symm_val dot_S320x10000_S10000x128_S320x128_1_0_0_1_n_n 10000 rfl rfl k
  have el : dot_S320x10000_S10000x128_S320x128_1_0_0_1_n_n.lhsIdx (ix2 p j) ((ValueIdx.contrEquiv1 dot_S320x10000_S10000x128_S320x128_1_0_0_1_n_n 10000 rfl rfl).symm k) = ix2 p k := funext fun d => Fin.ext (by
    match d with
    | ⟨0, _⟩ => exact lhs_adjx_0 _ _
    | ⟨1, _⟩ => exact (lhs_adjx_1 _ _).trans hk)
  have er : dot_S320x10000_S10000x128_S320x128_1_0_0_1_n_n.rhsIdx (ix2 p j) ((ValueIdx.contrEquiv1 dot_S320x10000_S10000x128_S320x128_1_0_0_1_n_n 10000 rfl rfl).symm k) = ix2 k j := funext fun d => Fin.ext (by
    match d with
    | ⟨0, _⟩ => exact (rhs_adjx_0 _ _).trans hk
    | ⟨1, _⟩ => exact rhs_adjx_1 _ _)
  rw [el, er]

/-! ### Second product: the 128 columns of the first product against the weight ([320,128] · [128,128]) -/

theorem lhs_hw_0 (i : S320x128.Idx) (q : dot_S320x128_S128x128_S320x128_1_0_0_1_n_n.contr.Idx) :
    (dot_S320x128_S128x128_S320x128_1_0_0_1_n_n.lhsIdx i q 0).val = (i 0).val := by
  unfold DotDims.lhsIdx
  rw [dif_neg (show ¬(0 : Fin S320x128.rank) ∈ dot_S320x128_S128x128_S320x128_1_0_0_1_n_n.lhsBatch by decide), dif_pos (show (0 : Fin S320x128.rank) ∈ dot_S320x128_S128x128_S320x128_1_0_0_1_n_n.lhsNonContracting by decide)]
  rfl
theorem lhs_hw_1 (i : S320x128.Idx) (q : dot_S320x128_S128x128_S320x128_1_0_0_1_n_n.contr.Idx) :
    (dot_S320x128_S128x128_S320x128_1_0_0_1_n_n.lhsIdx i q 1).val = (q ⟨0, by decide⟩).val :=
  dot_S320x128_S128x128_S320x128_1_0_0_1_n_n.lhsIdx_val_of_single rfl i q
theorem rhs_hw_0 (i : S320x128.Idx) (q : dot_S320x128_S128x128_S320x128_1_0_0_1_n_n.contr.Idx) :
    (dot_S320x128_S128x128_S320x128_1_0_0_1_n_n.rhsIdx i q 0).val = (q ⟨0, by decide⟩).val :=
  dot_S320x128_S128x128_S320x128_1_0_0_1_n_n.rhsIdx_val_of_single rfl i q
theorem rhs_hw_1 (i : S320x128.Idx) (q : dot_S320x128_S128x128_S320x128_1_0_0_1_n_n.contr.Idx) :
    (dot_S320x128_S128x128_S320x128_1_0_0_1_n_n.rhsIdx i q 1).val = (i 1).val := by
  unfold DotDims.rhsIdx
  rw [dif_neg (show ¬(1 : Fin S128x128.rank) ∈ dot_S320x128_S128x128_S320x128_1_0_0_1_n_n.rhsBatch by decide), dif_pos (show (1 : Fin S128x128.rank) ∈ dot_S320x128_S128x128_S320x128_1_0_0_1_n_n.rhsNonContracting by decide)]
  rfl

/-- Entry (p, c) of the second product is ∑ j, a p j · b j c. -/
theorem hw_apply (a : FVec Ideal S320x128 .f32) (b : FVec Ideal S128x128 .f32) (p : Fin 320) (c : Fin 128) :
    matmul dot_S320x128_S128x128_S320x128_1_0_0_1_n_n none a b (constant S320x128 .f32 0x00000000#32) (ix2 p c)
      = ∑ j : Fin 128, a (ix2 p j) * b (ix2 j c) := by
  simp only [matmul]
  rw [Ideal.matmul_constant_zero_apply, ← Equiv.sum_comp (ValueIdx.contrEquiv1 dot_S320x128_S128x128_S320x128_1_0_0_1_n_n 128 rfl rfl).symm]
  refine Finset.sum_congr rfl fun j _ => ?_
  have hj := ValueIdx.contrEquiv1_symm_val dot_S320x128_S128x128_S320x128_1_0_0_1_n_n 128 rfl rfl j
  have el : dot_S320x128_S128x128_S320x128_1_0_0_1_n_n.lhsIdx (ix2 p c) ((ValueIdx.contrEquiv1 dot_S320x128_S128x128_S320x128_1_0_0_1_n_n 128 rfl rfl).symm j) = ix2 p j := funext fun d => Fin.ext (by
    match d with
    | ⟨0, _⟩ => exact lhs_hw_0 _ _
    | ⟨1, _⟩ => exact (lhs_hw_1 _ _).trans hj)
  have er : dot_S320x128_S128x128_S320x128_1_0_0_1_n_n.rhsIdx (ix2 p c) ((ValueIdx.contrEquiv1 dot_S320x128_S128x128_S320x128_1_0_0_1_n_n 128 rfl rfl).symm j) = ix2 j c := funext fun d => Fin.ext (by
    match d with
    | ⟨0, _⟩ => exact (rhs_hw_0 _ _).trans hj
    | ⟨1, _⟩ => exact rhs_hw_1 _ _)
  rw [el, er]

/-! ### Third product: the 128 columns of the row against the ROWS of the classifier ([320,128] · [16,128], axis 1 of both) -/

theorem lhs_cls_0 (i : S320x16.Idx) (q : dot_S320x128_S16x128_S320x16_1_1_0_0_n_n.contr.Idx) :
    (dot_S320x128_S16x128_S320x16_1_1_0_0_n_n.lhsIdx i q 0).val = (i 0).val := by
  unfold DotDims.lhsIdx
  rw [dif_neg (show ¬(0 : Fin S320x128.rank) ∈ dot_S320x128_S16x128_S320x16_1_1_0_0_n_n.lhsBatch by decide), dif_pos (show (0 : Fin S320x128.rank) ∈ dot_S320x128_S16x128_S320x16_1_1_0_0_n_n.lhsNonContracting by decide)]
  rfl
theorem lhs_cls_1 (i : S320x16.Idx) (q : dot_S320x128_S16x128_S320x16_1_1_0_0_n_n.contr.Idx) :
    (dot_S320x128_S16x128_S320x16_1_1_0_0_n_n.lhsIdx i q 1).val = (q ⟨0, by decide⟩).val :=
  dot_S320x128_S16x128_S320x16_1_1_0_0_n_n.lhsIdx_val_of_single rfl i q
theorem rhs_cls_0 (i : S320x16.Idx) (q : dot_S320x128_S16x128_S320x16_1_1_0_0_n_n.contr.Idx) :
    (dot_S320x128_S16x128_S320x16_1_1_0_0_n_n.rhsIdx i q 0).val = (i 1).val := by
  unfold DotDims.rhsIdx
  rw [dif_neg (show ¬(0 : Fin S16x128.rank) ∈ dot_S320x128_S16x128_S320x16_1_1_0_0_n_n.rhsBatch by decide), dif_pos (show (0 : Fin S16x128.rank) ∈ dot_S320x128_S16x128_S320x16_1_1_0_0_n_n.rhsNonContracting by decide)]
  rfl
theorem rhs_cls_1 (i : S320x16.Idx) (q : dot_S320x128_S16x128_S320x16_1_1_0_0_n_n.contr.Idx) :
    (dot_S320x128_S16x128_S320x16_1_1_0_0_n_n.rhsIdx i q 1).val = (q ⟨0, by decide⟩).val :=
  dot_S320x128_S16x128_S320x16_1_1_0_0_n_n.rhsIdx_val_of_single rfl i q

/-- Entry (p, q) of the third product is ∑ c, a p c · b q c. -/
theorem cls_apply (a : FVec Ideal S320x128 .f32) (b : FVec Ideal S16x128 .f32) (p : Fin 320) (q : Fin 16) :
    matmul dot_S320x128_S16x128_S320x16_1_1_0_0_n_n none a b (constant S320x16 .f32 0x00000000#32) (ix2 p q)
      = ∑ c : Fin 128, a (ix2 p c) * b (ix2 q c) := by
  simp only [matmul]
  rw [Ideal.matmul_constant_zero_apply, ← Equiv.sum_comp (ValueIdx.contrEquiv1 dot_S320x128_S16x128_S320x16_1_1_0_0_n_n 128 rfl rfl).symm]
  refine Finset.sum_congr rfl fun c _ => ?_
  have hc := ValueIdx.contrEquiv1_symm_val dot_S320x128_S16x128_S320x16_1_1_0_0_n_n 128 rfl rfl c
  have el : dot_S320x128_S16x128_S320x16_1_1_0_0_n_n.lhsIdx (ix2 p q) ((ValueIdx.contrEquiv1 dot_S320x128_S16x128_S320x16_1_1_0_0_n_n 128 rfl rfl).symm c) = ix2 p c := funext fun d => Fin.ext (by
    match d with
    | ⟨0, _⟩ => exact lhs_cls_0 _ _
    | ⟨1, _⟩ => exact (lhs_cls_1 _ _).trans hc)
  have er : dot_S320x128_S16x128_S320x16_1_1_0_0_n_n.rhsIdx (ix2 p q) ((ValueIdx.contrEquiv1 dot_S320x128_S16x128_S320x16_1_1_0_0_n_n 128 rfl rfl).symm c) = ix2 q c := funext fun d => Fin.ext (by
    match d with
    | ⟨0, _⟩ => exact rhs_cls_0 _ _
    | ⟨1, _⟩ => exact (rhs_cls_1 _ _).trans hc)
  rw [el, er]

/-! ## The layout operations and the lane sum, read at an index -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum over the 128 lanes of row p of a [320,128] block. -/
theorem lanes_apply (v : FVec Ideal S320x128 .f32) (p : Fin 320) :
    multiReduction (F := Ideal) .add [1] S320 v 0x00000000#32 reduces_S320x128_S320 (.inl rfl) rfl (ix1 p)
      = ∑ c : Fin 128, v (ix2 p c) := by
  refine (Ideal.multiReduction_add_single v 0x00000000#32 reduces_S320x128_S320 (.inl rfl) rfl (ix1 p)).trans ?_
  refine Finset.sum_congr rfl fun c _ => congrArg v ?_
  funext d
  exact Fin.ext (by match d with | ⟨0, _⟩ => rfl | ⟨1, _⟩ => rfl)

/-! ## The stored block at an index -/

/-- A square root at an index is the square root of the entry. -/
theorem sqrt_apply {s : Shape} {φ : FTy} (a : FVec Ideal s φ) (i : s.Idx) : sqrt a i = Ideal.sqrt (a i) := rfl

/-- Entry (p, c) after both products: the first association of the double sum, on row p of the summed adjacency. -/
theorem prods_apply (x0 x1 : FVec Ideal S320x10000 .f32) (x2 : FVec Ideal S10000x128 .f32) (x3 : FVec Ideal S128x128 .f32)
    (p : Fin 320) (c : Fin 128) :
    matmul dot_S320x128_S128x128_S320x128_1_0_0_1_n_n none
        (matmul dot_S320x10000_S10000x128_S320x128_1_0_0_1_n_n none (addf x0 x1) x2 (constant S320x128 .f32 0x00000000#32))
        x3 (constant S320x128 .f32 0x00000000#32) (ix2 p c)
      = Cert.Gcn.twoProdL (fun k => x0 (ix2 p k) + x1 (ix2 p k)) (fun k j => x2 (ix2 k j)) (fun j c => x3 (ix2 j c)) c := by
  rw [hw_apply]
  unfold Cert.Gcn.twoProdL
  refine Finset.sum_congr rfl fun j _ => ?_
  rw [adjx_apply]
  rfl

/-- What is done to the block `h` of rows after both products, read at (p, q): the row tail of row p of `h`. -/
theorem tail_apply (h : FVec Ideal S320x128 .f32) (x4 : FVec Ideal S16x128 .f32) (x5 : FVec Ideal S1x16 .f32) (p : Fin 320) (q : Fin 16) :
    addf (matmul dot_S320x128_S16x128_S320x16_1_1_0_0_n_n none
          (maximumf
            (divf h (broadcastTo S320x128
              (maximumf
                (sqrt (shapeCast S320x1 (multiReduction (F := Ideal) .add [1] S320 (mulf h h) 0x00000000#32 reduces_S320x128_S320 (.inl rfl) rfl) shapeCasts_S320_S320x1))
                (broadcast S320x1 (Scalar.ofBits (F := Ideal) .f32 0x2B8CBCCC#32)))
              broadcasts_S320x1_S320x128))
            (broadcast S320x128 (Scalar.ofBits (F := Ideal) .f32 0x00000000#32)))
          x4 (constant S320x16 .f32 0x00000000#32))
        (broadcastTo S320x16 (shapeCast S1x16 x5 shapeCasts_S1x16_S1x16) broadcasts_S1x16_S320x16) (ix2 p q)
      = Cert.Gcn.rowTail (fun c => h (ix2 p c)) (fun q' c => x4 (ix2 q' c)) (fun q' => x5 (ix2 (0 : Fin 1) q')) q := by
  rw [addf_apply, cls_apply, shapeCast_self, broadcastTo_1b_ab_apply]
  unfold Cert.Gcn.rowTail
  refine congrArg (· + x5 (ix2 (0 : Fin 1) q)) (Finset.sum_congr rfl fun c _ => ?_)
  rw [maximumf_apply, divf_apply, broadcast_apply, broadcastTo_a1_ab_apply, maximumf_apply, broadcast_apply, sqrt_apply,
    shapeCast_a_a1_apply, lanes_apply]
  simp only [mulf_apply, Ideal.ofBits_def, Ideal.ofBits_zero_f32]

/-- THE PAYLOAD AT AN INDEX: entry (p, q) of the stored block is the row tail of the two products of row p. -/
theorem pay_apply (x0 x1 : Vec Ideal S320x10000 .f32) (x2 : Vec Ideal S10000x128 .f32) (x3 : Vec Ideal S128x128 .f32) (x4 : Vec Ideal S16x128 .f32) (x5 : Vec Ideal S1x16 .f32)
    (p : Fin 320) (q : Fin 16) :
    k0_pay1 (F := Ideal) x0 x1 x2 x3 x4 x5 (ix2 p q)
      = Cert.Gcn.rowTail (Cert.Gcn.twoProdL (fun k => x0 (ix2 p k) + x1 (ix2 p k)) (fun k j => x2 (ix2 k j)) (fun j c => x3 (ix2 j c)))
          (fun q' c => x4 (ix2 q' c)) (fun q' => x5 (ix2 (0 : Fin 1) q')) q := by
  unfold k0_pay1
  exact (tail_apply _ x4 x5 p q).trans
    (congrArg (fun h => Cert.Gcn.rowTail h (fun q' c => x4 (ix2 q' c)) (fun q' => x5 (ix2 (0 : Fin 1) q')) q)
      (funext fun c => prods_apply x0 x1 x2 x3 p c))

/-- ROW-LOCALITY: entry (p, q) of the stored block depends on row p of the two adjacency blocks only. -/
theorem pay_congr_rows (x0 x0' x1 x1' : Vec Ideal S320x10000 .f32) (x2 : Vec Ideal S10000x128 .f32) (x3 : Vec Ideal S128x128 .f32) (x4 : Vec Ideal S16x128 .f32) (x5 : Vec Ideal S1x16 .f32)
    (p : Fin 320) (h0 : ∀ k : Fin 10000, x0 (ix2 p k) = x0' (ix2 p k)) (h1 : ∀ k : Fin 10000, x1 (ix2 p k) = x1' (ix2 p k)) (q : Fin 16) :
    k0_pay1 (F := Ideal) x0 x1 x2 x3 x4 x5 (ix2 p q) = k0_pay1 (F := Ideal) x0' x1' x2 x3 x4 x5 (ix2 p q) := by
  rw [pay_apply, pay_apply]
  simp only [h0, h1]

end Cert.KernelIdeal.Pay

end
-- ==== Proof.KernelIdealRun.lean ====
import proofs.«140461_g49323404427480_cont_8to1_c_747_6_alg».proof.Proof.KernelIdealData
import proofs.«140461_g49323404427480_cont_8to1_c_747_6_alg».proof.Proof.KernelIdealBody
import proofs.«140461_g49323404427480_cont_8to1_c_747_6_alg».proof.Proof.PayloadAt

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## Which rows of a block a transfer moves -/

/-- At every grid point the three row-blocked windows are cut alike on the row axis and not at all on the other. -/
theorem cut_sizes : ∀ t : Fin cfg0.N, win0_0.xsize (grid0.coords t) 0 = win0_6.xsize (grid0.coords t) 0 ∧ win0_1.xsize (grid0.coords t) 0 = win0_6.xsize (grid0.coords t) 0
    ∧ win0_0.xsize (grid0.coords t) 1 = 10000 ∧ win0_1.xsize (grid0.coords t) 1 = 10000 ∧ win0_6.xsize (grid0.coords t) 1 = 16 :=
  (by decide +kernel : ∀ t : Fin grid0.N, win0_0.xsize (grid0.coords t) 0 = win0_6.xsize (grid0.coords t) 0 ∧ win0_1.xsize (grid0.coords t) 0 = win0_6.xsize (grid0.coords t) 0
    ∧ win0_0.xsize (grid0.coords t) 1 = 10000 ∧ win0_1.xsize (grid0.coords t) 1 = 10000 ∧ win0_6.xsize (grid0.coords t) 1 = 16)

/-- Two paddings of one adjacency block agree on every row the transfer moves. -/
theorem fill0_row (t : Fin cfg0.N) (d d' : S320x10000.Idx → Elt Ideal .f32) (g : (win0_0.xblock (grid0.coords t)).Idx → Elt Ideal .f32)
    (p : Fin 320) (hp : p.val < win0_6.xsize (grid0.coords t) 0) (k : Fin 10000) :
    win0_0.fill (grid0.coords t) d g (ix2 p k) = win0_0.fill (grid0.coords t) d' g (ix2 p k) := by
  have hm : win0_0.moved (grid0.coords t) (ix2 p k) = true := (win0_0.moved_iff _ _).mpr fun a => by
    match a with
    | ⟨0, _⟩ => show p.val < win0_0.xsize (grid0.coords t) 0; rw [(cut_sizes t).1]; exact hp
    | ⟨1, _⟩ => show k.val < win0_0.xsize (grid0.coords t) 1; rw [(cut_sizes t).2.2.1]; exact k.isLt
  unfold Window.fill; rw [dif_pos hm, dif_pos hm]
theorem fill1_row (t : Fin cfg0.N) (d d' : S320x10000.Idx → Elt Ideal .f32) (g : (win0_1.xblock (grid0.coords t)).Idx → Elt Ideal .f32)
    (p : Fin 320) (hp : p.val < win0_6.xsize (grid0.coords t) 0) (k : Fin 10000) :
    win0_1.fill (grid0.coords t) d g (ix2 p k) = win0_1.fill (grid0.coords t) d' g (ix2 p k) := by
  have hm : win0_1.moved (grid0.coords t) (ix2 p k) = true := (win0_1.moved_iff _ _).mpr fun a => by
    match a with
    | ⟨0, _⟩ => show p.val < win0_1.xsize (grid0.coords t) 0; rw [(cut_sizes t).2.1]; exact hp
    | ⟨1, _⟩ => show k.val < win0_1.xsize (grid0.coords t) 1; rw [(cut_sizes t).2.2.2.1]; exact k.isLt
  unfold Window.fill; rw [dif_pos hm, dif_pos hm]

/-- A row of the layer's output depends on the same row of the two adjacency blocks only; so on the rows the
    write-back moves, the body's result does not depend on what lay below the blocks' last row inside the array. -/
theorem cut_out_eq (c : Dev nD) (t : Fin cfg0.N) (d0 d1 : S320x10000.Idx → Elt Ideal .f32) :
    win0_6.cut (grid0.coords t)
        (k0_pay1 (F := Ideal) (win0_0.fill (grid0.coords t) d0 (iblk m c 0 t)) (win0_1.fill (grid0.coords t) d1 (iblk m c 1 t))
          (iblk m c 2 t) (iblk m c 3 t) (iblk m c 4 t) (iblk m c 5 t))
      = win0_6.cut (grid0.coords t) (outBlk m c t) := by
  funext j
  have hp : (j 0).val < win0_6.xsize (grid0.coords t) 0 := (j 0).isLt
  have hq : (j 1).val < 16 := by
    have h : (j 1).val < win0_6.xsize (grid0.coords t) 1 := (j 1).isLt
    rw [(cut_sizes t).2.2.2.2] at h; exact h
  have hp320 : (j 0).val < 320 := Nat.lt_of_lt_of_le hp (win0_6.xsize_le _ 0)
  have e : win0_6.xinj (grid0.coords t) j = ix2 (⟨(j 0).val, hp320⟩ : Fin 320) (⟨(j 1).val, hq⟩ : Fin 16) :=
    funext fun a => Fin.ext (by match a with | ⟨0, _⟩ => rfl | ⟨1, _⟩ => rfl)
  show k0_pay1 (F := Ideal) _ _ _ _ _ _ (win0_6.xinj (grid0.coords t) j) = outBlk m c t (win0_6.xinj (grid0.coords t) j)
  rw [e]
  unfold outBlk adjBlk adjwBlk
  exact Pay.pay_congr_rows _ _ _ _ _ _ _ _ _ (fun k => fill0_row t _ _ _ _ hp k) (fun k => fill1_row t _ _ _ _ hp k) _

/-! ## The body obligation -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns: the three row-blocked buffers are described on the rows their transfers move only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare (win0_6.fill (grid0.coords t) d (win0_6.cut (grid0.coords t) ((dats m 0 c).after 6 t)))))

set_option maxHeartbeats 1000000 in
/-- The body at any point: the adjacency buffers hold their blocks' rows inside the array over anything, the four
    whole inputs their arrays; the body leaves the inputs as found and the output at the layer of what it found,
    which on the rows written back is the layer of the zero-padded blocks (`cut_out_eq`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := Ideal) c Set.univ (grid0.coords t) _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists d0
    rw [show win0_0.cut (grid0.coords t) (adjBlk m c t) = iblk m c 0 t from win0_0.cut_fill _ _ _]
    iexact H0
  isplitl [H1]
  · iexists d1
    rw [show win0_1.cut (grid0.coords t) (adjwBlk m c t) = iblk m c 1 t from win0_1.cut_fill _ _ _]
    iexact H1
  isplitl [H2]; · iexact H2
  isplitl [H3]; · iexact H3
  isplitl [H4]; · iexact H4
  isplitl [H5]; · iexact H5
  iexists _
  rw [← cut_out_eq m c t d0 d1, win0_6.fill_cut]
  iexact H6

/-- The pipeline's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the program ends, nothing faulting, with each array of the pipeline at what the
    write-backs leave of the proof data and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.KernelIdealFinal.lean ====
import proofs.«140461_g49323404427480_cont_8to1_c_747_6_alg».proof.Proof.KernelIdealRun
import proofs.«140461_g49323404427480_cont_8to1_c_747_6_alg».proof.Proof.PayloadAt
import proofs.«140461_g49323404427480_cont_8to1_c_747_6_alg».proof.Proof.Spec
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Idealize.ShloMosaic.ValueIdx

variable (m : (ℓ : Loc nD τ sig) → Buf (Elt Ideal) ℓ) (ρ : Dev nD → PrngReg)

/-! ## Where a block's element sits in its array -/

/-- The index maps, decided once over the grid: the row-blocked windows are at block row `t`, block column 0;
    the four whole windows at block (0, 0); the output block has min 320 (10000 - 320 t) rows inside the array. -/
theorem idx_facts : ∀ t : Fin cfg0.N, win0_6.index t 0 = t.val ∧ win0_6.index t 1 = 0 ∧ win0_0.index t 0 = t.val ∧ win0_0.index t 1 = 0
    ∧ win0_1.index t 0 = t.val ∧ win0_1.index t 1 = 0 ∧ win0_6.xsize (grid0.coords t) 0 = min 320 (10000 - 320 * t.val)
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0 :=
  (by decide +kernel : ∀ t : Fin grid0.N, win0_6.index t 0 = t.val ∧ win0_6.index t 1 = 0 ∧ win0_0.index t 0 = t.val ∧ win0_0.index t 1 = 0
    ∧ win0_1.index t 0 = t.val ∧ win0_1.index t 1 = 0 ∧ win0_6.xsize (grid0.coords t) 0 = min 320 (10000 - 320 * t.val)
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0)

/-- Row `y 0` of the adjacency block at point `t` is row 320 t + y 0 of the array. -/
theorem iblk0_apply (c : Dev nD) (t : Fin cfg0.N) (y : (win0_0.xblock (grid0.coords t)).Idx) (r k : Fin 10000)
    (hr : r.val = t.val * 320 + (y 0).val) (hk : k.val = (y 1).val) :
    iblk m c 0 t y = V m c main_arg1 (ix2 r k) := by
  unfold iblk
  rw [View.read_apply]
  show V m c main_arg1 (((cfg0.win 0).blk t).view.emb y) = V m c main_arg1 (ix2 r k)
  refine congrArg _ (funext fun a => Fin.ext ?_)
  match a with
  | ⟨0, _⟩ =>
    show win0_0.index t 0 * 320 + 1 * (y 0).val = r.val
    rw [(idx_facts t).2.2.1]; omega
  | ⟨1, _⟩ =>
    show win0_0.index t 1 * 10000 + 1 * (y 1).val = k.val
    rw [(idx_facts t).2.2.2.1]; omega
/-- The weight-adjacency block likewise. -/
theorem iblk1_apply (c : Dev nD) (t : Fin cfg0.N) (y : (win0_1.xblock (grid0.coords t)).Idx) (r k : Fin 10000)
    (hr : r.val = t.val * 320 + (y 0).val) (hk : k.val = (y 1).val) :
    iblk m c 1 t y = V m c main_arg2 (ix2 r k) := by
  unfold iblk
  rw [View.read_apply]
  show V m c main_arg2 (((cfg0.win 1).blk t).view.emb y) = V m c main_arg2 (ix2 r k)
  refine congrArg _ (funext fun a => Fin.ext ?_)
  match a with
  | ⟨0, _⟩ =>
    show win0_1.index t 0 * 320 + 1 * (y 0).val = r.val
    rw [(idx_facts t).2.2.2.2.1]; omega
  | ⟨1, _⟩ =>
    show win0_1.index t 1 * 10000 + 1 * (y 1).val = k.val
    rw [(idx_facts t).2.2.2.2.2.1]; omega
/-- The four whole windows' blocks are their arrays. -/
theorem iblk2_apply (c : Dev nD) (t : Fin cfg0.N) (k : Fin 10000) (j : Fin 128) :
    iblk m c 2 t (ix2 k j) = V m c main_arg0 (ix2 k j) := by
  unfold iblk
  rw [View.read_apply]
  show V m c main_arg0 (((cfg0.win 2).blk t).view.emb (ix2 k j)) = V m c main_arg0 (ix2 k j)
  refine congrArg _ (funext fun a => Fin.ext ?_)
  match a with
  | ⟨0, _⟩ =>
    show win0_2.index t 0 * 10000 + 1 * k.val = k.val
    rw [(idx_facts t).2.2.2.2.2.2.2.1]; omega
  | ⟨1, _⟩ =>
    show win0_2.index t 1 * 128 + 1 * j.val = j.val
    rw [(idx_facts t).2.2.2.2.2.2.2.2.1]; omega
theorem iblk3_apply (c : Dev nD) (t : Fin cfg0.N) (k : Fin 128) (j : Fin 128) :
    iblk m c 3 t (ix2 k j) = V m c main_arg3 (ix2 k j) := by
  unfold iblk
  rw [View.read_apply]
  show V m c main_arg3 (((cfg0.win 3).blk t).view.emb (ix2 k j)) = V m c main_arg3 (ix2 k j)
  refine congrArg _ (funext fun a => Fin.ext ?_)
  match a with
  | ⟨0, _⟩ =>
    show win0_3.index t 0 * 128 + 1 * k.val = k.val
    rw [(idx_facts t).2.2.2.2.2.2.2.2.2.1]; omega
  | ⟨1, _⟩ =>
    show win0_3.index t 1 * 128 + 1 * j.val = j.val
    rw [(idx_facts t).2.2.2.2.2.2.2.2.2.2.1]; omega
theorem iblk4_apply (c : Dev nD) (t : Fin cfg0.N) (k : Fin 16) (j : Fin 128) :
    iblk m c 4 t (ix2 k j) = V m c main_arg4 (ix2 k j) := by
  unfold iblk
  rw [View.read_apply]
  show V m c main_arg4 (((cfg0.win 4).blk t).view.emb (ix2 k j)) = V m c main_arg4 (ix2 k j)
  refine congrArg _ (funext fun a => Fin.ext ?_)
  match a with
  | ⟨0, _⟩ =>
    show win0_4.index t 0 * 16 + 1 * k.val = k.val
    rw [(idx_facts t).2.2.2.2.2.2.2.2.2.2.2.1]; omega
  | ⟨1, _⟩ =>
    show win0_4.index t 1 * 128 + 1 * j.val = j.val
    rw [(idx_facts t).2.2.2.2.2.2.2.2.2.2.2.2.1]; omega
theorem iblk5_apply (c : Dev nD) (t : Fin cfg0.N) (k : Fin 1) (j : Fin 16) :
    iblk m c 5 t (ix2 k j) = V m c main_v0 (ix2 k j) := by
  unfold iblk
  rw [View.read_apply]
  show V m c main_v0 (((cfg0.win 5).blk t).view.emb (ix2 k j)) = V m c main_v0 (ix2 k j)
  refine congrArg _ (funext fun a => Fin.ext ?_)
  match a with
  | ⟨0, _⟩ =>
    show win0_5.index t 0 * 1 + 1 * k.val = k.val
    rw [(idx_facts t).2.2.2.2.2.2.2.2.2.2.2.2.2.1]; omega
  | ⟨1, _⟩ =>
    show win0_5.index t 1 * 16 + 1 * j.val = j.val
    rw [(idx_facts t).2.2.2.2.2.2.2.2.2.2.2.2.2.2]; omega

/-- The bias as the region finds it: the host reshapes the 16 entries into a 1 × 16 row; at (0, q) it reads entry q. -/
theorem V_bias (c : Dev nD) (q : Fin 16) :
    (V m c main_v0 : S1x16.Idx → EReal) (ix2 (0 : Fin 1) q) = (m ((c : Thread nD τ).loc main_arg5) : S16.Idx → EReal) (ix1 q) := by
  have e : (V m c main_v0 : S1x16.Idx → EReal) = shapeCast S1x16 (m ((c : Thread nD τ).loc main_arg5) : S16.Idx → EReal) Facts₀.shapeCasts_S16_S1x16 := by
    dsimp only [Gen.V, Gen.hostOps0]; after_results; rfl
  rw [e]
  refine (shapeCast_addUnit_apply ![16] _ _ (ix2 (0 : Fin 1) q)).trans ?_
  exact congrArg _ (funext fun a => by match a with | ⟨0, _⟩ => rfl)

/-! ## What each point writes back is its rows of the layer's result -/

/-- Device `c`'s argument arrays, each at its literal type: features, the two adjacencies, weight, classifier, bias. -/
abbrev xArr (c : Dev nD) : S10000x128.Idx → EReal := m ((c : Thread nD τ).loc main_arg0)
abbrev adjArr (c : Dev nD) : S10000x10000.Idx → EReal := m ((c : Thread nD τ).loc main_arg1)
abbrev adjwArr (c : Dev nD) : S10000x10000.Idx → EReal := m ((c : Thread nD τ).loc main_arg2)
abbrev wArr (c : Dev nD) : S128x128.Idx → EReal := m ((c : Thread nD τ).loc main_arg3)
abbrev clsArr (c : Dev nD) : S16x128.Idx → EReal := m ((c : Thread nD τ).loc main_arg4)
abbrev biasArr (c : Dev nD) : S16.Idx → EReal := m ((c : Thread nD τ).loc main_arg5)

/-- The layer's result on device `c`'s argument arrays. -/
def G (c : Dev nD) : S10000x16.Idx → EReal :=
  Cert.Gcn.result (xArr m c) (adjArr m c) (adjwArr m c) (wArr m c) (clsArr m c) (biasArr m c)

/-- Every entry of the features, the two adjacencies and the weight is a real number. -/
def RealInputs (c : Dev nD) : Prop :=
  (∀ i, ∃ r : ℝ, xArr m c i = (r : EReal)) ∧ (∀ i, ∃ r : ℝ, adjArr m c i = (r : EReal))
  ∧ (∀ i, ∃ r : ℝ, adjwArr m c i = (r : EReal)) ∧ (∀ i, ∃ r : ℝ, wArr m c i = (r : EReal))

/-- A sum of two reals is a real. -/
theorem real_add' {a b : EReal} (ha : ∃ r : ℝ, a = (r : EReal)) (hb : ∃ r : ℝ, b = (r : EReal)) : ∃ r : ℝ, a + b = (r : EReal) := by
  obtain ⟨ra, rfl⟩ := ha; obtain ⟨rb, rfl⟩ := hb; exact ⟨ra + rb, (EReal.coe_add ra rb).symm⟩

/-- Row `y 0` of what point `t` writes back is row 320 t + y 0 of the layer's result: the kernel's row is
    (a · x) · W through the row tail, the result's a · (x · W) through the same tail, equal on real entries. -/
theorem flushed_eq (c : Dev nD) (hre : RealInputs m c) (t : Fin cfg0.N) :
    (dats m 0 c).flushed 6 t = ((cfg0.win 6).blk t).view.read (Elt Ideal) (G m c) := by
  funext j
  have hp : (j 0).val < win0_6.xsize (grid0.coords t) 0 := (j 0).isLt
  have hq : (j 1).val < 16 := by
    have h : (j 1).val < win0_6.xsize (grid0.coords t) 1 := (j 1).isLt
    rw [(cut_sizes t).2.2.2.2] at h; exact h
  have hp320 : (j 0).val < 320 := Nat.lt_of_lt_of_le hp (win0_6.xsize_le _ 0)
  have ht32 : t.val < 32 := lt_of_lt_of_eq t.isLt N_0
  have hr : t.val * 320 + (j 0).val < 10000 := by
    have h := hp; rw [(idx_facts t).2.2.2.2.2.2.1] at h; omega
  have e : win0_6.xinj (grid0.coords t) j = ix2 (⟨(j 0).val, hp320⟩ : Fin 320) (⟨(j 1).val, hq⟩ : Fin 16) :=
    funext fun a => Fin.ext (by match a with | ⟨0, _⟩ => rfl | ⟨1, _⟩ => rfl)
  have eR : ((cfg0.win 6).blk t).view.emb j = ix2 (⟨t.val * 320 + (j 0).val, hr⟩ : Fin 10000) (⟨(j 1).val, hq⟩ : Fin 16) :=
    funext fun a => Fin.ext (by
      match a with
      | ⟨0, _⟩ =>
        show win0_6.index t 0 * 320 + 1 * (j 0).val = t.val * 320 + (j 0).val
        rw [(idx_facts t).1]; omega
      | ⟨1, _⟩ =>
        show win0_6.index t 1 * 16 + 1 * (j 1).val = (j 1).val
        rw [(idx_facts t).2.1]; omega)
  rw [View.read_apply]
  show (dats m 0 c).after 6 t (win0_6.xinj (grid0.coords t) j) = G m c (((cfg0.win 6).blk t).view.emb j)
  rw [after0_6, e, eR]
  unfold outBlk
  rw [Pay.pay_apply]
  show _ = Cert.Gcn.rowTail
      (Cert.Gcn.twoProdR (fun k => adjArr m c (ix2 (⟨t.val * 320 + (j 0).val, hr⟩ : Fin 10000) k)
            + adjwArr m c (ix2 (⟨t.val * 320 + (j 0).val, hr⟩ : Fin 10000) k))
        (fun k j' => xArr m c (ix2 k j'))
        (fun j' c' => wArr m c (ix2 j' c')))
      (fun q' c' => clsArr m c (ix2 q' c'))
      (fun q' => biasArr m c (ix1 q')) ⟨(j 1).val, hq⟩
  have hm0 : ∀ k : Fin 10000, win0_0.moved (grid0.coords t) (ix2 (⟨(j 0).val, hp320⟩ : Fin 320) k) = true := fun k =>
    (win0_0.moved_iff _ _).mpr fun a => by
      match a with
      | ⟨0, _⟩ => show (j 0).val < win0_0.xsize (grid0.coords t) 0; rw [(cut_sizes t).1]; exact hp
      | ⟨1, _⟩ => show k.val < win0_0.xsize (grid0.coords t) 1; rw [(cut_sizes t).2.2.1]; exact k.isLt
  have hm1 : ∀ k : Fin 10000, win0_1.moved (grid0.coords t) (ix2 (⟨(j 0).val, hp320⟩ : Fin 320) k) = true := fun k =>
    (win0_1.moved_iff _ _).mpr fun a => by
      match a with
      | ⟨0, _⟩ => show (j 0).val < win0_1.xsize (grid0.coords t) 0; rw [(cut_sizes t).2.1]; exact hp
      | ⟨1, _⟩ => show k.val < win0_1.xsize (grid0.coords t) 1; rw [(cut_sizes t).2.2.2.1]; exact k.isLt
  have hA : (fun k : Fin 10000 => adjBlk m c t (ix2 (⟨(j 0).val, hp320⟩ : Fin 320) k) + adjwBlk m c t (ix2 (⟨(j 0).val, hp320⟩ : Fin 320) k))
      = fun k => adjArr m c (ix2 (⟨t.val * 320 + (j 0).val, hr⟩ : Fin 10000) k)
            + adjwArr m c (ix2 (⟨t.val * 320 + (j 0).val, hr⟩ : Fin 10000) k) := by
    funext k
    have e0 : adjBlk m c t (ix2 (⟨(j 0).val, hp320⟩ : Fin 320) k) = adjArr m c (ix2 (⟨t.val * 320 + (j 0).val, hr⟩ : Fin 10000) k) := by
      unfold adjBlk Window.fill; rw [dif_pos (hm0 k)]
      exact (iblk0_apply m c t _ _ k rfl rfl).trans (congrFun (V_main_arg1 m c) _)
    have e1 : adjwBlk m c t (ix2 (⟨(j 0).val, hp320⟩ : Fin 320) k) = adjwArr m c (ix2 (⟨t.val * 320 + (j 0).val, hr⟩ : Fin 10000) k) := by
      unfold adjwBlk Window.fill; rw [dif_pos (hm1 k)]
      exact (iblk1_apply m c t _ _ k rfl rfl).trans (congrFun (V_main_arg2 m c) _)
    rw [e0, e1]
  have hX : (fun (k : Fin 10000) (j' : Fin 128) => iblk m c 2 t (ix2 k j')) = fun k j' => xArr m c (ix2 k j') := by
    funext k j'; exact (iblk2_apply m c t k j').trans (congrFun (V_main_arg0 m c) _)
  have hW : (fun (j' : Fin 128) (c' : Fin 128) => iblk m c 3 t (ix2 j' c')) = fun j' c' => wArr m c (ix2 j' c') := by
    funext j' c'; exact (iblk3_apply m c t j' c').trans (congrFun (V_main_arg3 m c) _)
  have hWm : (fun (q' : Fin 16) (c' : Fin 128) => iblk m c 4 t (ix2 q' c')) = fun q' c' => clsArr m c (ix2 q' c') := by
    funext q' c'; exact (iblk4_apply m c t q' c').trans (congrFun (V_main_arg4 m c) _)
  have hb : (fun q' : Fin 16 => iblk m c 5 t (ix2 (0 : Fin 1) q')) = fun q' => biasArr m c (ix1 q') := by
    funext q'; exact (iblk5_apply m c t 0 q').trans (V_bias m c q')
  rw [hA, hX, hW, hWm, hb]
  rw [Cert.Gcn.twoProdL_eq_twoProdR _ _ _ (fun k => real_add' (hre.2.1 _) (hre.2.2.1 _)) (fun k j' => hre.1 _) (fun j' c' => hre.2.2.2 _)]

/-- Every row of the result lies in the block of the point 320 rows of which hold it. -/
theorem cover (i : S10000x16.Idx) : ∃ t : Fin cfg0.N, (cfg0.win 6).flush t = true ∧ i ∈ ((cfg0.win 6).blk t).view.set := by
  have hi : (i 0).val < 10000 := (i 0).isLt
  have hi1 : (i 1).val < 16 := (i 1).isLt
  have ht : (i 0).val / 320 < cfg0.N := by rw [show cfg0.N = 32 from N_0]; omega
  refine ⟨⟨(i 0).val / 320, ht⟩, flush0_6 _, ?_⟩
  show i ∈ ((View.whole main_v1).slice (win0_6.rect ⟨(i 0).val / 320, ht⟩)).set
  rw [View.set_slice_whole, Rect.mem_set_unit]
  intro a
  match a with
  | ⟨0, _⟩ =>
    show win0_6.index ⟨(i 0).val / 320, ht⟩ 0 * 320 ≤ (i 0).val ∧ (i 0).val < win0_6.index ⟨(i 0).val / 320, ht⟩ 0 * 320 + win0_6.xsize (grid0.coords ⟨(i 0).val / 320, ht⟩) 0
    rw [(idx_facts _).1, (idx_facts _).2.2.2.2.2.2.1]
    show (i 0).val / 320 * 320 ≤ (i 0).val ∧ (i 0).val < (i 0).val / 320 * 320 + min 320 (10000 - 320 * ((i 0).val / 320))
    omega
  | ⟨1, _⟩ =>
    show win0_6.index ⟨(i 0).val / 320, ht⟩ 1 * 16 ≤ (i 1).val ∧ (i 1).val < win0_6.index ⟨(i 0).val / 320, ht⟩ 1 * 16 + win0_6.xsize (grid0.coords ⟨(i 0).val / 320, ht⟩) 1
    rw [(idx_facts _).2.1, (cut_sizes _).2.2.2.2]
    omega

/-- After the last write-back the result array holds the layer's result. -/
theorem final (c : Dev nD) (hre : RealInputs m c) : (dats m 0 c).arrAt 6 cfg0.N = G m c :=
  (dats m 0 c).arrAt_eq_of_cover 6 (G m c) (fun t _ => flushed_eq m c hre t) cover

/-- The run, with the result named: every weakly fair execution ends, nothing faulting, the result array at the
    layer's result of the argument arrays and the argument arrays as they were. -/
theorem run_value (hre : ∀ c, RealInputs m c) :
    θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c (hre c)),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

/-- The frame: the same run with the result dropped; it needs nothing of the inputs. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.RefIsSpec.lean ====
/-
  The reference program computes the layer of Spec.lean.

  Reading the reference one operation at a time at the index (r, q): the summed adjacency row r is contracted against
  the product x · W (association a · (x · W)), the 128 entries of that row are divided by the larger of their
  Euclidean norm and the floor, clamped below at zero, contracted against row q of the classifier and shifted by the
  bias. The only arithmetic facts used are 0 + s = s for the sum of squares' initial value and that the zero word reads 0.
-/
import proofs.«140461_g49323404427480_cont_8to1_c_747_6_alg».proof.Defs
import proofs.«140461_g49323404427480_cont_8to1_c_747_6_alg».proof.Proof.Gen.ReferenceIdeal
import proofs.«140461_g49323404427480_cont_8to1_c_747_6_alg».proof.Proof.Gen.ReferenceIdeal.Run
import proofs.«140461_g49323404427480_cont_8to1_c_747_6_alg».proof.Proof.Gen.ReferenceIdeal.Read
import proofs.«140461_g49323404427480_cont_8to1_c_747_6_alg».proof.Proof.Spec

noncomputable section

open scoped BigOperators
open Idealize.ShloMosaic Idealize.ShloMosaic.ValueIdx
open Cert.ReferenceIdeal Cert.ReferenceIdeal.Gen Cert.ReferenceIdeal.Read

namespace Cert.ReferenceIdeal.RefValue

/-! ## The index maps of the reference's operations, at an index given by its coordinates -/

theorem lidx_v1 (k : Fin 10000) (c : Fin 128) (j : Fin 128) : lidx_main_v1 (ix2 k c) j = ix2 k j :=
  funext fun a => Fin.ext (by match a with | ⟨0, _⟩ => rfl | ⟨1, _⟩ => rfl)
theorem ridx_v1 (k : Fin 10000) (c : Fin 128) (j : Fin 128) : ridx_main_v1 (ix2 k c) j = ix2 j c :=
  funext fun a => Fin.ext (by match a with | ⟨0, _⟩ => rfl | ⟨1, _⟩ => rfl)
theorem lidx_v2 (r : Fin 10000) (c : Fin 128) (k : Fin 10000) : lidx_main_v2 (ix2 r c) k = ix2 r k :=
  funext fun a => Fin.ext (by match a with | ⟨0, _⟩ => rfl | ⟨1, _⟩ => rfl)
theorem ridx_v2 (r : Fin 10000) (c : Fin 128) (k : Fin 10000) : ridx_main_v2 (ix2 r c) k = ix2 k c :=
  funext fun a => Fin.ext (by match a with | ⟨0, _⟩ => rfl | ⟨1, _⟩ => rfl)

theorem idx_sq (r : Fin 10000) (z : Fin 1) (c : Fin 128) : idx_main_call0_v1 (idx_main_call0_v2 (ix2 r z)) c = ix2 r c :=
  funext fun a => Fin.ext (by match a with | ⟨0, _⟩ => rfl | ⟨1, _⟩ => rfl)
theorem idx_norm (r : Fin 10000) (c : Fin 128) : idx_main_v6 (ix2 r c) = ix2 r (0 : Fin 1) :=
  funext fun a => Fin.ext (by match a with | ⟨0, _⟩ => rfl | ⟨1, _⟩ => rfl)
theorem lidx_v10 (r : Fin 10000) (q : Fin 16) (c : Fin 128) : lidx_main_v10 (ix2 r q) c = ix2 r c :=
  funext fun a => Fin.ext (by match a with | ⟨0, _⟩ => rfl | ⟨1, _⟩ => rfl)
theorem ridx_v10 (r : Fin 10000) (q : Fin 16) (c : Fin 128) : idx_main_v9 (ridx_main_v10 (ix2 r q) c) = ix2 q c :=
  funext fun a => Fin.ext (by match a with | ⟨0, _⟩ => rfl | ⟨1, _⟩ => rfl)
theorem idx_bias (r : Fin 10000) (q : Fin 16) : idx_main_v11 (idx_main_v12 (ix2 r q)) = ix1 q :=
  funext fun a => Fin.ext (by match a with | ⟨0, _⟩ => rfl)

section
variable (x0 : (⟨S10000x128, .f32⟩ : BufTy).Contents (Elt Ideal)) (x1 x2 : (⟨S10000x10000, .f32⟩ : BufTy).Contents (Elt Ideal))
  (x3 : (⟨S128x128, .f32⟩ : BufTy).Contents (Elt Ideal)) (x4 : (⟨S16x128, .f32⟩ : BufTy).Contents (Elt Ideal))
  (x5 : (⟨S16, .f32⟩ : BufTy).Contents (Elt Ideal))

/-- Row r of the products, as the reference associates them. -/
abbrev row (r : Fin 10000) : Fin 128 → EReal :=
  Cert.Gcn.twoProdR (fun k => x1 (ix2 r k) + x2 (ix2 r k)) (fun k j => x0 (ix2 k j)) (fun j c => x3 (ix2 j c))

/-- The second product at (r, c) is entry c of that row. -/
theorem v2_at (r : Fin 10000) (c : Fin 128) :
    val_main_v2 (F := Ideal) x0 x1 x2 x3 (ix2 r c) = row x0 x1 x2 x3 r c := by
  rw [val_main_v2_apply]
  unfold row Cert.Gcn.twoProdR
  refine Finset.sum_congr rfl fun k _ => ?_
  rw [lidx_v2, ridx_v2, val_main_v0_apply, val_main_v1_apply, Ideal.addf_def]
  congr 1
  refine Finset.sum_congr rfl fun j _ => ?_
  rw [lidx_v1, ridx_v1]
/-- The norm column at row r: the larger of the row's Euclidean norm and the floor. -/
theorem v5_at (r : Fin 10000) (z : Fin 1) :
    val_main_v5 (F := Ideal) x0 x1 x2 x3 (ix2 r z)
      = max (Ideal.sqrt (∑ c' : Fin 128, row x0 x1 x2 x3 r c' * row x0 x1 x2 x3 r c')) Cert.Gcn.floorLit := by
  rw [val_main_v5_apply, val_main_v3_apply, val_main_call0_v2_apply, val_main_call0_v1_apply, val_main_call0_cst_apply,
    val_main_v4_apply, val_main_cst_apply, Ideal.maximumf_def, Ideal.hostUnary_sqrt_def, Ideal.ofBits_def, Ideal.ofBits_def,
    Ideal.ofBits_zero_f32, zero_add]
  congr 2
  refine Finset.sum_congr rfl fun c' _ => ?_
  rw [val_main_call0_v0_apply, Ideal.mulf_def, idx_sq, v2_at]

/-- The normalised and clamped row at (r, c). -/
theorem v8_at (r : Fin 10000) (c : Fin 128) :
    val_main_v8 (F := Ideal) x0 x1 x2 x3 (ix2 r c)
      = max (Ideal.div (row x0 x1 x2 x3 r c)
          (max (Ideal.sqrt (∑ c' : Fin 128, row x0 x1 x2 x3 r c' * row x0 x1 x2 x3 r c')) Cert.Gcn.floorLit)) 0 := by
  rw [val_main_v8_apply, val_main_v7_apply, val_main_v6_apply, idx_norm, v5_at, v2_at, val_main_call1_v0_apply,
    val_main_call1_cst_apply, Ideal.maximumf_def, Ideal.hostDivf_def, Ideal.ofBits_def, Ideal.ofBits_zero_f32]

end

/-- The reference's result is the layer of the specification. -/
theorem ref_eq (x0 : (⟨S10000x128, .f32⟩ : BufTy).Contents (Elt Ideal)) (x1 x2 : (⟨S10000x10000, .f32⟩ : BufTy).Contents (Elt Ideal)) (x3 : (⟨S128x128, .f32⟩ : BufTy).Contents (Elt Ideal))
    (x4 : (⟨S16x128, .f32⟩ : BufTy).Contents (Elt Ideal)) (x5 : (⟨S16, .f32⟩ : BufTy).Contents (Elt Ideal)) :
    Cert.ReferenceIdeal.Read.val_main_v13 (F := Ideal) x0 x1 x2 x3 x4 x5 = Cert.Gcn.result x0 x1 x2 x3 x4 x5 := by
  funext i
  obtain ⟨r, q, rfl⟩ : ∃ (r : Fin 10000) (q : Fin 16), i = ix2 r q := ⟨i 0, i 1, eq_ix2 i⟩
  rw [val_main_v13_apply, val_main_v10_apply, val_main_v12_apply, val_main_v11_apply, idx_bias, Ideal.addf_def]
  show _ = (∑ c : Fin 128, max (Ideal.div (row x0 x1 x2 x3 r c)
      (max (Ideal.sqrt (∑ c' : Fin 128, row x0 x1 x2 x3 r c' * row x0 x1 x2 x3 r c')) Cert.Gcn.floorLit)) 0 * x4 (ix2 q c)) + x5 (ix1 q)
  congr 1
  refine Finset.sum_congr rfl fun c _ => ?_
  rw [lidx_v10, val_main_v9_apply, ridx_v10, v8_at]

end Cert.ReferenceIdeal.RefValue

end
-- ==== Proof.FiniteInputs.lean ====
/-
  Finiteness of the inputs, from the precondition.

  The precondition is the conjunction, over the six argument arrays, of "every entry has absolute value below +∞",
  each conjunct computed as a reduction by "and" of the entrywise comparisons. If the conjunction is the word 1 then
  every comparison came out 1, so every entry x satisfies max x (−x) < ⊤ on the extended reals, which leaves only the
  real numbers: at ⊤ and at ⊥ that maximum is ⊤.
-/
import proofs.«140461_g49323404427480_cont_8to1_c_747_6_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

open Idealize.ShloMosaic Idealize.ShloMosaic.ValueIdx
open Cert.Pre_finite_inputs

namespace Cert.Gcn

/-- The scalar shape has one index. -/
instance subsingleton_scalar_idx : Subsingleton S_.Idx := ⟨fun a b => funext fun d => d.elim0⟩

/-- The word of +∞ reads ⊤. -/
theorem ofBits_inf_f32 : Ideal.ofBits .f32 0x7F800000#32 = (⊤ : EReal) := by simp [Ideal.ofBits, Ideal.ieee]

/-- An extended real whose absolute value is below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The sum of two real numbers, read in the extended reals, is a real number. -/
theorem real_add {a b : EReal} (ha : ∃ r : ℝ, a = (r : EReal)) (hb : ∃ r : ℝ, b = (r : EReal)) : ∃ r : ℝ, a + b = (r : EReal) := by
  obtain ⟨ra, rfl⟩ := ha
  obtain ⟨rb, rfl⟩ := hb
  exact ⟨ra + rb, (EReal.coe_add ra rb).symm⟩

/-- A conjunction of two tests at an index is 1 only if both are. -/
theorem andi_at {s : Shape} (a b : IVec s 1) (i : s.Idx) (h : andi a b i = 1#1) : a i = 1#1 ∧ b i = 1#1 :=
  IntOp.andi_eq_one.1 h

/-- One conjunct of the precondition: if "all entries of |x| are below +∞" is the word 1, every entry of x is real. -/
theorem real_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant (F := Ideal) S_ .f32 0x7F800000#32))) init hr hu ix0 = 1#1)
    (i : s.Idx) : ∃ r : ℝ, x i = (r : EReal) := by
  have hi := Host.reduce_andi_all _ init hr hu ix0 e i
  change BitVec.ofBool (decide (max (x i) (-(x i)) < Ideal.ofBits .f32 0x7F800000#32)) = 1#1 at hi
  rw [ofBits_inf_f32] at hi
  refine real_of_abs_lt_top (x i) ?_
  by_contra hn
  rw [decide_eq_false hn] at hi
  exact absurd hi (by decide)

/-- From the precondition, every entry of the feature matrix, of the two adjacency matrices and of the weight is a real number. -/
theorem real_of_pre [Facts] (x0 : FVec Ideal S10000x128 .f32) (x1 x2 : FVec Ideal S10000x10000 .f32) (x3 : FVec Ideal S128x128 .f32)
    (x4 : FVec Ideal S16x128 .f32) (x5 : FVec Ideal S16 .f32)
    (h : Cert.Pre_finite_inputs.fn (F := Ideal) x0 x1 x2 x3 x4 x5 = (fun _ => 1#1)) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have h0 := congrFun h ix0
  dsimp only [Cert.Pre_finite_inputs.fn, Cert.Pre_finite_inputs.fn_part1] at h0
  obtain ⟨h0, -⟩ := andi_at _ _ _ h0
  obtain ⟨h0, -⟩ := andi_at _ _ _ h0
  obtain ⟨h0, e3⟩ := andi_at _ _ _ h0
  obtain ⟨h0, e2⟩ := andi_at _ _ _ h0
  obtain ⟨e0, e1⟩ := andi_at _ _ _ h0
  exact ⟨real_of_all x0 _ _ _ _ e0, real_of_all x1 _ _ _ _ e1, real_of_all x2 _ _ _ _ e2, real_of_all x3 _ _ _ _ e3⟩

end Cert.Gcn

end
-- ==== Proof.lean ====
/-
  The certificate of one graph-convolution layer with a linear classifier,
      out = relu (rownormalise ((adj + adj_w) · x · W)) · mlp_Wᵀ + mlp_b,
  computed by a kernel that walks the 10000 rows of the two adjacency matrices in 32 blocks of 320 rows (the last
  block holds the array's last 80 rows; its other 240 rows hold words nothing names) against a plain reference.

  Why the two agree on the extended reals. Every output row depends on the same row of adj + adj_w only: the
  kernel forms (a · x) · W for the rows a of its block, the reference a · (x · W) for every row; on real entries
  (which the precondition gives) the two double sums are one (Spec: assoc_real). What follows the products — the
  row's Euclidean norm under the floor literal, the division, the clamp at 0, the contraction against the
  classifier's rows and the bias — is the same expression on both sides (Spec: rowTail).
  Because a row of the kernel's block result depends on that row of the blocks alone (PayloadAt: pay_congr_rows),
  the 240 unnamed rows of the last block reach only rows the clipped write-back never moves, so the array ends at
  the layer's result whatever they held (KernelIdealRun: cut_out_eq; KernelIdealFinal: flushed_eq, cover, final).

  The frames. The idealized kernel's frame is its value run with the result dropped. The word-level kernel's frame
  says nothing of the block results (at the word level a matrix product is not read row by row): every staging
  buffer is handed to the body and taken back at contents not named (KernelFrame). The reference's frame is its
  run with the result dropped.
-/
import proofs.«140461_g49323404427480_cont_8to1_c_747_6_alg».proof.Defs
import proofs.«140461_g49323404427480_cont_8to1_c_747_6_alg».proof.Proof.Gen.Kernel
import proofs.«140461_g49323404427480_cont_8to1_c_747_6_alg».proof.Proof.Gen.KernelIdeal
import proofs.«140461_g49323404427480_cont_8to1_c_747_6_alg».proof.Proof.Gen.ReferenceIdeal
import proofs.«140461_g49323404427480_cont_8to1_c_747_6_alg».proof.Proof.Gen.ReferenceIdeal.Run
import proofs.«140461_g49323404427480_cont_8to1_c_747_6_alg».proof.Proof.Gen.ReferenceIdeal.Read
import proofs.«140461_g49323404427480_cont_8to1_c_747_6_alg».proof.Proof.Gen.Pre_finite_inputs
import proofs.«140461_g49323404427480_cont_8to1_c_747_6_alg».proof.Proof.KernelFrame
import proofs.«140461_g49323404427480_cont_8to1_c_747_6_alg».proof.Proof.KernelIdealFinal
import proofs.«140461_g49323404427480_cont_8to1_c_747_6_alg».proof.Proof.RefIsSpec
import proofs.«140461_g49323404427480_cont_8to1_c_747_6_alg».proof.Proof.FiniteInputs
import Idealize.ShloMosaic.Adequacy
import Idealize.ShloMosaic.Init

noncomputable section

namespace Cert.Proof

open Idealize.ShloMosaic Idealize.SL.Sem

/-- The word-level kernel runs to the end, faults nowhere and leaves its arguments as they were. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, all finite, both programs end with the layer's result of the
    arguments: the kernel by its value run, the reference because its composed term is the same function. -/
theorem algebraic : Cert.algebraic_KernelIdeal_ReferenceIdeal := by
  intro m ρ m' ρ' hpre hagree
  have hre : ∀ c, Cert.KernelIdeal.Hand.RealInputs m c := fun c => Cert.Gcn.real_of_pre _ _ _ _ _ _ (hpre c)
  refine ⟨fun c => Cert.KernelIdeal.Hand.G m c, Cert.KernelIdeal.Hand.run_value m ρ hre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v13_eq _ _ _ _ _ _).trans (Cert.ReferenceIdeal.RefValue.ref_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
